-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S1x192 : Shape := ⟨2, ![1, 192]⟩
abbrev S1 : Shape := ⟨1, ![1]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S1x192 : S_.BroadcastsInDim S1x192 (![] : Fin 0 → Fin S1x192.rank)
  reducesTo_S1x192_S_d0_1 : S1x192.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S100000x64 .f32) (main_arg1 : FVec F S1600000x64 .f32) (main_arg2 : FVec F S1x192 .f32) (main_arg3 : FVec F S1 .f32) (main_arg4 : IVec S1600000 32) (main_arg5 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S1x192 .f32 := Host.absf main_arg2
  let main_cst_2 : FVec F S_ .f32 := constant S_ .f32 0x7F800000#32
  let main_v10 : FVec F S1x192 .f32 := broadcastInDim S1x192 ![] bcast_S_S1x192 main_cst_2
  let main_v11 : IVec S1x192 1 := cmpf .olt main_v9 main_v10
  let main_c_3 : IVec S_ 1 := constantI S_ 1 1#1
  let main_v12 : IVec S_ 1 := (fun x v => Host.reduce IntOp.andi x v reducesTo_S1x192_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S100000x64 : Shape := ⟨2, ![100000, 64]⟩
abbrev S1600000x64 : Shape := ⟨2, ![1600000, 64]⟩
abbrev S1x192 : Shape := ⟨2, ![1, 192]⟩
abbrev S1 : Shape := ⟨1, ![1]⟩
abbrev S1600000 : Shape := ⟨1, ![1600000]⟩
abbrev S1x64 : Shape := ⟨2, ![1, 64]⟩
abbrev S100000x1 : Shape := ⟨2, ![100000, 1]⟩
abbrev S100000 : Shape := ⟨1, ![100000]⟩
abbrev S_ : Shape := ⟨0, ![]⟩
abbrev S1600000x1 : Shape := ⟨2, ![1600000, 1]⟩
abbrev S1600000x2 : Shape := ⟨2, ![1600000, 2]⟩
abbrev S1x1 : Shape := ⟨2, ![1, 1]⟩
abbrev S4096x64 : Shape := ⟨2, ![4096, 64]⟩
abbrev S4096x2 : Shape := ⟨2, ![4096, 2]⟩
abbrev S4096x1 : Shape := ⟨2, ![4096, 1]⟩
abbrev S4096 : Shape := ⟨1, ![4096]⟩

abbrev nBuf : Space → Nat
  | .hbm => 36
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S1x192, .f32⟩
  | .hbm, ⟨3, _⟩ => ⟨S1, .f32⟩
  | .hbm, ⟨4, _⟩ => ⟨S1600000, .i32⟩
  | .hbm, ⟨5, _⟩ => ⟨S1600000, .i32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S100000x1, .f32⟩
  | .hbm, ⟨10, _⟩ => ⟨S100000, .f32⟩
  | .hbm, ⟨11, _⟩ => ⟨S100000x1, .f32⟩
  | .hbm, ⟨12, _⟩ => ⟨S100000, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000, .f32⟩
  | .hbm, ⟨22, _⟩ => ⟨S1600000x1, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000x1, .f32⟩
  | .hbm, ⟨33, _⟩ => ⟨S1600000x2, .f32⟩
  | .hbm, ⟨34, _⟩ => ⟨S1x1, .f32⟩
  | .hbm, ⟨35, _⟩ => ⟨S1600000x1, .f32⟩
  | .local _ .vmem, ⟨0, _⟩ => ⟨S4096x64, .f32⟩
  | .local _ .vmem, ⟨1, _⟩ => ⟨S4096x64, .f32⟩
  | .local _ .vmem, ⟨2, _⟩ => ⟨S4096x2, .f32⟩
  | .local _ .vmem, ⟨3, _⟩ => ⟨S4096x2, .f32⟩
  | .local _ .vmem, ⟨4, _⟩ => ⟨S1x64, .f32⟩
  | .local _ .vmem, ⟨5, _⟩ => ⟨S1x1, .f32⟩
  | .local _ .vmem, ⟨6, _⟩ => ⟨S4096x1, .f32⟩
  | .local _ .vmem, ⟨7, _⟩ => ⟨S4096x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![391], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S1x192_S1x64_0_0 : S1x192.Slices ![0, 0] S1x64
  slices_S1x192_S1x64_0_64 : S1x192.Slices ![0, 64] S1x64
  slices_S1x192_S1x64_0_128 : S1x192.Slices ![0, 128] S1x64
  shapeCasts_S100000x1_S100000 : S100000x1.ShapeCasts S100000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  concatenates_S1600000x1_S1600000x1_S1600000x2_d1 : Shape.Concatenates [S1600000x1, S1600000x1] S1600000x2 1
  shapeCasts_S1_S1x1 : S1.ShapeCasts S1x1
  inb_S4096x64_S4096x64_0_0 : ∀ a, (![0, 0] : Fin 2 → Nat) a + S4096x64.size a ≤ S4096x64.size a
  h_S4096x64 : 0 < S4096x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  reduces_S4096x2_S4096 : S4096x2.Reduces [1] S4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S100000x64_S1x64_S100000x1_1_1_0_0_n_n_wf : DotDims.WF S100000x64 S1x64 S100000x1 [1] [1] [0] [0] [] []
  gather_S100000_S1600000x1_S1600000_n_0_n_n_0_1_1_wf : GatherDims.WF S100000 S1600000x1 S1600000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x64.size a < S1600000x64.size a
  hwx0_0 : ∀ i : grid0.Coords, EltTy.bits .f32 = 32 ∨ (Rect.unit (s := S1600000x64) (fun a => cc0_transform_0 i a * S4096x64.size a) (fun a => (Pipeline.Clip.of (cc0_transform_0 i a) (S4096x64.size a) (S1600000x64.size a)).extent (S4096x64.size a)) fun a => Pipeline.Clip.inb (Pipeline.Clip.ok_of (hstart0_0 i a))).WholeWords (EltTy.packing .f32)
  hwxs0_0 : ∀ i : grid0.Coords, EltTy.bits .f32 = 32 ∨ (Rect.unit (s := S4096x64) (fun _ => 0) (fun a => (Pipeline.Clip.of (cc0_transform_0 i a) (S4096x64.size a) (S1600000x64.size a)).extent (S4096x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x2.size a < S1600000x2.size a
  hwx0_1 : ∀ i : grid0.Coords, EltTy.bits .f32 = 32 ∨ (Rect.unit (s := S1600000x2) (fun a => cc0_transform_1 i a * S4096x2.size a) (fun a => (Pipeline.Clip.of (cc0_transform_1 i a) (S4096x2.size a) (S1600000x2.size a)).extent (S4096x2.size a)) fun a => Pipeline.Clip.inb (Pipeline.Clip.ok_of (hstart0_1 i a))).WholeWords (EltTy.packing .f32)
  hwxs0_1 : ∀ i : grid0.Coords, EltTy.bits .f32 = 32 ∨ (Rect.unit (s := S4096x2) (fun _ => 0) (fun a => (Pipeline.Clip.of (cc0_transform_1 i a) (S4096x2.size a) (S1600000x2.size a)).extent (S4096x2.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S4096x1.size a < S1600000x1.size a
  hwx0_4 : ∀ i : grid0.Coords, EltTy.bits .f32 = 32 ∨ (Rect.unit (s := S1600000x1) (fun a => cc0_transform_4 i a * S4096x1.size a) (fun a => (Pipeline.Clip.of (cc0_transform_4 i a) (S4096x1.size a) (S1600000x1.size a)).extent (S4096x1.size a)) fun a => Pipeline.Clip.inb (Pipeline.Clip.ok_of (hstart0_4 i a))).WholeWords (EltTy.packing .f32)
  hwxs0_4 : ∀ i : grid0.Coords, EltTy.bits .f32 = 32 ∨ (Rect.unit (s := S4096x1) (fun _ => 0) (fun a => (Pipeline.Clip.of (cc0_transform_4 i a) (S4096x1.size a) (S1600000x1.size a)).extent (S4096x1.size a)) fun a => (Nat.zero_add _).trans_le (Pipeline.Clip.extent_le (Pipeline.Clip.ok_of (hstart0_4 i a)))).WholeWords (EltTy.packing .f32)

variable [Facts₀]

def dot_S100000x64_S1x64_S100000x1_1_1_0_0_n_n : DotDims S100000x64 S1x64 S100000x1 where
  lhsContracting := [1]
  rhsContracting := [1]
  lhsNonContracting := [0]
  rhsNonContracting := [0]
  lhsBatch := []
  rhsBatch := []
  wf := dot_S100000x64_S1x64_S100000x1_1_1_0_0_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf

abbrev win0_0 : Pipeline.Window sig grid0 :=
  Pipeline.Window.ofSpecClip (Memref.whole main_arg1) S4096x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v23) S4096x2.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v25) S4096x1.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S1x192 : Shape := ⟨2, ![1, 192]⟩
abbrev S1 : Shape := ⟨1, ![1]⟩
abbrev S1600000 : Shape := ⟨1, ![1600000]⟩
abbrev S1x64 : Shape := ⟨2, ![1, 64]⟩
abbrev S_ : Shape := ⟨0, ![]⟩
abbrev S1600000x1 : Shape := ⟨2, ![1600000, 1]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S1x192, .f32⟩
  | .hbm, ⟨3, _⟩ => ⟨S1, .f32⟩
  | .hbm, ⟨4, _⟩ => ⟨S1600000, .i32⟩
  | .hbm, ⟨5, _⟩ => ⟨S1600000, .i32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S1600000x1, .f32⟩
  | .hbm, ⟨29, _⟩ => ⟨S1600000x1, .f32⟩
  | .hbm, ⟨30, _⟩ => ⟨S1600000x1, .f32⟩
  | .hbm, ⟨31, _⟩ => ⟨S1600000x1, .f32⟩
  | .hbm, ⟨32, _⟩ => ⟨S1x1, .f32⟩
  | .hbm, ⟨33, _⟩ => ⟨S1600000x1, .f32⟩
  | .hbm, ⟨34, _⟩ => ⟨S1600000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  slices_S1x192_S1x64_0_0 : S1x192.Slices ![0, 0] S1x64
  slices_S1x192_S1x64_0_64 : S1x192.Slices ![0, 64] S1x64
  slices_S1x192_S1x64_0_128 : S1x192.Slices ![0, 128] S1x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  gather_S100000x64_S1600000x1_S1600000x64_1_0_n_n_0_1_164_wf : GatherDims.WF S100000x64 S1600000x1 S1600000x64 [1] [0] [] [0] [] 1 ![1, 64]
  dot_S1600000x64_S1x64_S1600000x1_1_1_0_0_n_n_wf : DotDims.WF S1600000x64 S1x64 S1600000x1 [1] [1] [0] [0] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S1x64_S1600000x1_1_1_0_0_n_n : DotDims S1600000x64 S1x64 S1600000x1 where
  lhsContracting := [1]
  rhsContracting := [1]
  lhsNonContracting := [0]
  rhsNonContracting := [0]
  lhsBatch := []
  rhsBatch := []
  wf := dot_S1600000x64_S1x64_S1600000x1_1_1_0_0_n_n_wf

class Facts : Prop extends Facts₀ where

variable [Facts]
-- ==== Proof.FrameBits.lean ====
/-
  The word-level kernel's frame: it runs to the end, faults nowhere and leaves its six argument arrays unchanged.
  Nothing is said of what it writes into the result: at the word level a lane sum is a function of the whole block it
  is taken of, and the last grid point's blocks hold, past the arrays' end, words nothing names; so the proof data
  FORGETS the result window (it is handed to the body at any contents and taken back at any contents) and names only
  the four input buffers, which the body leaves as it found them — the two streamed ones stated on the rows inside the
  arrays, as their cut last block requires.
-/
import proofs.«425191_j76347338653860_3_alg».proof.Proof.BodyBits
import Idealize.ShloMosaic.Lib.Pipeline.Frame

set_option maxRecDepth 16384

noncomputable section

namespace Cert.Kernel.FrameB

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one window forgotten: the result's. -/
def forgets0 : Fin 5 → Bool := fun w => w.val == 4

/-- The edge-feature block of point `t` (its rows inside the array), filled out to 4096 rows with the zero word. -/
def xblk8 (c : Dev nD) (t : Fin cfg0.N) : S4096x64.Idx → Elt F .f32 :=
  win0_0.fill (grid0.coords t) (fun _ => Scalar.ofBits (F := F) .f32 0#32) (iblk m c 0 t)

/-- The packed node-term block of point `t`, likewise. -/
def acblk8 (c : Dev nD) (t : Fin cfg0.N) : S4096x2.Idx → Elt F .f32 :=
  win0_1.fill (grid0.coords t) (fun _ => Scalar.ofBits (F := F) .f32 0#32) (iblk m c 1 t)

/-- The proof data on core `c`: the arrays as the region finds them; after the body the four input buffers at their
    blocks (the streamed two filled out), the result's unnamed. -/
def dats (_ : Fin 1) (c : Dev nD) : Dat τ (Elt F) Unit ℕ (UR sig nD τ) ℕ cfg0 c where
  A w := V m c (Pipeline.arrRef spec0 w)
  after w t := match w with
    | ⟨0, _⟩ => xblk8 m c t
    | ⟨1, _⟩ => acblk8 m c t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xblk8 m c t := by dsimp only [dats]
theorem after0_1 (c : Dev nD) (t : Fin cfg0.N) : (dats m 0 c).after 1 t = acblk8 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-! ## What the body finds in each input buffer -/

theorem before0_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]
theorem before0_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [A_eq]
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the four inputs' buffers as found, the result's at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the two cut input windows stated on the rows their fetches move, the other two whole, the
    result's at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    (win0_0.fill (grid0.coords t) d0 (iblk m c 0 t)) (win0_1.fill (grid0.coords t) d1 (iblk m c 1 t))
    (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    show _ ⊢ owns (c : Thread nD τ) (st0_0 t) fullShare (win0_0.fill (grid0.coords t) d0 (win0_0.cut (grid0.coords t) (xblk8 m c t)))
    unfold xblk8; rw [Window.cut_fill]
  isplitl [H1]
  · iexists d1
    show _ ⊢ owns (c : Thread nD τ) (st0_1 t) fullShare (win0_1.fill (grid0.coords t) d1 (win0_1.cut (grid0.coords t) (acblk8 m c t)))
    unfold acblk8; rw [Window.cut_fill]
  isplitl [H2]; · iexact H2
  isplitl [H3]; · iexact H3
  iexists _; iexact H4

/-- The library's body obligation with the result window forgotten, at every point. -/
theorem body_obligation (c : Dev nD) :
    BodyObligationLoose (dats (F := F) m 0 c) (defs₀ (F := F)) Variants.none () Set.univ forgets0 := fun t => by
  rw [bigSep_W0, bigSep_W0]
  exact sound_body m c t

/-! ## The run and the frame -/

set_option backward.isDefEq.respectTransparency.types false in
/-- Every weakly fair execution of @main terminates; every final state has every INPUT array of the pipeline unchanged
    and every other unscoped buffer as the region found it; nothing is stated of the forgotten result. -/
theorem run_main : θ_run defs (onTc (τ := τ) (main (F := F))) (s₀ m ρ)
    (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The frame: the six argument arrays end as they began — the edge features, which the pipeline stages, by the
    run's clause for an input window; the other five, which no window stages, by its clause for the rest. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (V_main_arg0 m c),
      (Pipeline.RDat.FramePost.arr_in h c 0 rfl).trans ((A_eq m c 0).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.Kernel.FrameB

end
-- ==== Proof.BodyIdeal.lean ====
/-
  The streaming kernel's body on whole staging buffers, at any float instance. It loads the edge-feature block
  (4096×64), the weight block (1×64), the packed node-term block (4096×2) and the bias block (1×1), and stores ONE value
  into the whole result block (4096×1): the lane sum of features times weights, plus the lane sum of the packed pair,
  plus the bias. Nothing else is written, nothing faults, and the four input buffers are left as found.
-/
import proofs.«425191_j76347338653860_3_alg».proof.Proof.Gen.KernelIdeal.Frame
import proofs.«425191_j76347338653860_3_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole result block as a rectangle: offset zero, the block's own extents. -/
abbrev rOut : Rect S4096x1 := Rect.unit (s := S4096x1) ![0, 0] S4096x1.size inb_S4096x1_S4096x1_0_0

/-- What the result buffer holds after the body, as a function of what the four input buffers hold: the one value the
    body stores, which covers the block. -/
def outBlock (x : Vec F S4096x64 .f32) (ac : Vec F S4096x2 .f32) (we : Vec F S1x64 .f32) (b : Vec F S1x1 .f32) :
    Vec F S4096x1 .f32 :=
  k0_pay1 x we ac b

/-- The offsets of every access of the body are zero. -/
theorem offs_zero : (![0, 0] : Fin 2 → Nat) = fun _ => 0 := funext fun a => by fin_cases a <;> rfl

/-- The one store is of the whole block, so it covers it. -/
theorem coverOut (p0 : Vec F S4096x1 .f32) (y : S4096x1.Idx) :
    ∃ pc ∈ ([⟨rOut, p0⟩] : List (View.Piece (Elt F) S4096x1 .f32)), y ∈ pc.1.set :=
  ⟨_, List.mem_singleton_self _, View.mem_set_unit_zero offs_zero inb_S4096x1_S4096x1_0_0 y⟩

set_option maxHeartbeats 1000000 in
/-- The body's triple: from the four inputs' buffers at `x`, `ac`, `we`, `b` and the result's at anything, to the
    same four and the result's at `outBlock x ac we b`. -/
theorem sound_kernel (c : Dev nD) (E : Set ℕ) (i : grid0.Coords)
    (arg1 : Memref sig .tc .vmem S4096x64 .f32) (harg1 : arg1.IsWhole) (arg2 : Memref sig .tc .vmem S4096x2 .f32) (harg2 : arg2.IsWhole)
    (arg3 : Memref sig .tc .vmem S1x64 .f32) (harg3 : arg3.IsWhole) (arg4 : Memref sig .tc .vmem S1x1 .f32) (harg4 : arg4.IsWhole)
    (arg5 : Memref sig .tc .vmem S4096x1 .f32) (harg5 : arg5.IsWhole)
    (x : Vec F S4096x64 .f32) (ac : Vec F S4096x2 .f32) (we : Vec F S1x64 .f32) (b : Vec F S1x1 .f32) (K : PUnit → sProp 𝕄) :
    iprop(owns (c : Thread nD τ) arg1 fullShare x ∗ owns (c : Thread nD τ) arg2 fullShare ac ∗ owns (c : Thread nD τ) arg3 fullShare we
        ∗ owns (c : Thread nD τ) arg4 fullShare b ∗ (∃ d, owns (c : Thread nD τ) arg5 fullShare d)
        ∗ (iprop(owns (c : Thread nD τ) arg1 fullShare x ∗ owns (c : Thread nD τ) arg2 fullShare ac ∗ owns (c : Thread nD τ) arg3 fullShare we
            ∗ owns (c : Thread nD τ) arg4 fullShare b ∗ owns (c : Thread nD τ) arg5 fullShare (outBlock x ac we b)) -∗ K ⟨⟩))
      ⊢ wp frame (wpE (defs₀ (F := F)) Variants.none c none) E
          (cc0__stream_kernel i arg1 harg1 arg2 harg2 arg3 harg3 arg4 harg4 arg5 harg5) K := by
  simp only [cc0__stream_kernel_eq_skeleton]; unfold cc0__stream_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the block read back after the one whole-block store is the stored value, each load the buffer's contents
  rw [View.read_writes_eq_canon _ _ _ (coverOut _), View.canon_unit_zero offs_zero]
  unfold outBlock
  simp only [View.readAt_eq_ld, View.ld_unit_zero (S := S4096x64) offs_zero, View.ld_unit_zero (S := S4096x2) offs_zero,
    View.ld_unit_zero (S := S1x64) offs_zero, View.ld_unit_zero (S := S1x1) offs_zero]

end Cert.KernelIdeal.Body

end
-- ==== Proof.LibVecRows.lean ====
/-
  A kernel's vector operations on a block of rows read at an index: the sum of each row, a vector of row values
  viewed as a column, and a column broadcast along the rows. Stated for any extents.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibVecRows

open Idealize.ShloMosaic Idealize.ShloMosaic.ValueIdx

/-- The sum over the second axis of an `a × b` block, read at row `p`: the sum of the row. -/
theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  -- The reduction over one axis is the sum over that axis's coordinates of the source at the row index with the
  -- coordinate inserted; on the second axis of a rank-2 block the inserted index is (p, k).
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext c
  match c with
  | ⟨0, _⟩ => exact Fin.ext rfl
  | ⟨1, _⟩ => exact Fin.ext rfl

/-- A vector of length `a` viewed as an `a × 1` column reads its own entry. -/
theorem shapeCast_col_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  -- Both indices have the row-major position p: p * 1 + 0 on the column side.
  shapeCast_apply v h _ _ (by
    have hz : z.val = 0 := by omega
    rw [Shape.rowMajor_val_one, Shape.rowMajor_val_two]
    show p.val = p.val * 1 + z.val
    rw [hz, Nat.mul_one, Nat.add_zero])

/-- An `a × 1` column broadcast to `a × b` reads the column's entry of the row. -/
theorem broadcastTo_col_apply {a b : ℕ} {α : Type} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  -- The row axis keeps its coordinate (which is 0 anyway when the extent is 1); the unit axis reads 0.
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.LibRowBroadcast.lean ====
/-
  A `1 × b` row broadcast along `a` rows, read at an index: every row reads the one row. Stated for any extents.
-/
import Idealize.ShloMosaic.Lib.ValueIdx
import Idealize.ShloMosaic.Lib.Pipeline.Value

noncomputable section

namespace RowBroadcast

open Idealize.ShloMosaic Idealize.ShloMosaic.ValueIdx

/-- A `1 × b` row broadcast to `a × b` reads, at `(p, k)`, the row's entry `k`. -/
theorem broadcastTo_row_apply {a b : ℕ} {α : Type} (v : (⟨2, ![1, b]⟩ : Shape).Idx → α)
    (h : (⟨2, ![1, b]⟩ : Shape).Broadcasts ⟨2, ![a, b]⟩) (p : Fin a) (k : Fin b) :
    broadcastTo ⟨2, ![a, b]⟩ v h (ix2 p k) = v (ix2 (0 : Fin 1) k) := by
  -- The unit axis reads 0; the column axis keeps its coordinate (which is 0 anyway when there is one column).
  refine broadcastTo_apply v h (ix2 p k) (ix2 (0 : Fin 1) k) fun ax => ?_
  match ax with
  | ⟨0, _⟩ => rfl
  | ⟨1, _⟩ =>
    show k.val = if b = 1 then 0 else k.val
    split
    · have := k.isLt; omega
    · rfl

end RowBroadcast

end
-- ==== Proof.Payload.lean ====
/-
  The value the streaming kernel's body stores, read at a row, over the extended reals: row `r` of the stored
  4096×1 block is the 64-term sum of the feature block's row `r` times the weight block, plus the two entries of the
  packed block's row `r`, plus the bias. So row `r` of the stored block depends on row `r` of the two streamed
  blocks only — which is what lets the last grid point, whose blocks run past the arrays' end, be stated on the rows
  inside the arrays alone.
-/
import proofs.«425191_j76347338653860_3_alg».proof.Proof.Gen.KernelIdeal.Skeleton
import proofs.«425191_j76347338653860_3_alg».proof.Proof.LibVecRows
import proofs.«425191_j76347338653860_3_alg».proof.Proof.LibRowBroadcast
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen
open Idealize.ShloMosaic Idealize.ShloMosaic.ValueIdx Cert.LibVecRows RowBroadcast

/-- The stored block at row `r`. -/
theorem pay_apply (x : Vec Ideal S4096x64 .f32) (we : Vec Ideal S1x64 .f32) (ac : Vec Ideal S4096x2 .f32)
    (b : Vec Ideal S1x1 .f32) (r : Fin 4096) :
    k0_pay1 (F := Ideal) x we ac b (ix2 r (0 : Fin 1))
      = ((∑ k : Fin 64, x (ix2 r k) * we (ix2 (0 : Fin 1) k)) + ∑ k : Fin 2, ac (ix2 r k))
          + b (ix2 (0 : Fin 1) (0 : Fin 1)) := by
  -- the lane sum of features times the broadcast weight row
  have e1 : multiReduction (F := Ideal) .add [1] S4096
        (mulf (F := Ideal) x (broadcastTo S4096x64 (shapeCast S1x64 we shapeCasts_S1x64_S1x64) broadcasts_S1x64_S4096x64))
        0x00000000#32 reduces_S4096x64_S4096 (.inl rfl) rfl (ix1 r)
      = ∑ k : Fin 64, x (ix2 r k) * we (ix2 (0 : Fin 1) k) := by
    refine (multiReduction_rows_apply _ _ _ _ _ r).trans ?_
    refine Finset.sum_congr rfl fun k _ => ?_
    rw [mulf_apply, broadcastTo_row_apply, shapeCast_self]
  -- the lane sum of the packed pair
  have e2 : multiReduction (F := Ideal) .add [1] S4096 (shapeCast S4096x2 ac shapeCasts_S4096x2_S4096x2)
        0x00000000#32 reduces_S4096x2_S4096 (.inl rfl) rfl (ix1 r)
      = ∑ k : Fin 2, ac (ix2 r k) := by
    refine (multiReduction_rows_apply _ _ _ _ _ r).trans ?_
    rw [shapeCast_self]
  unfold k0_pay1
  dsimp only
  rw [addf_apply, addf_apply, shapeCast_col_apply, shapeCast_col_apply, e1, e2, broadcastTo_row_apply, shapeCast_self]

/-- ROW-LOCALITY: two pairs of streamed blocks that agree on row `r` give stored blocks that agree on row `r`. -/
theorem pay_congr_row (x x' : Vec Ideal S4096x64 .f32) (we : Vec Ideal S1x64 .f32) (ac ac' : Vec Ideal S4096x2 .f32)
    (b : Vec Ideal S1x1 .f32) (r : Fin 4096) (hx : ∀ k : Fin 64, x (ix2 r k) = x' (ix2 r k))
    (hac : ∀ k : Fin 2, ac (ix2 r k) = ac' (ix2 r k)) :
    k0_pay1 (F := Ideal) x we ac b (ix2 r (0 : Fin 1)) = k0_pay1 (F := Ideal) x' we ac' b (ix2 r (0 : Fin 1)) := by
  rw [pay_apply, pay_apply]
  simp only [hx, hac]

end Cert.KernelIdeal.Payload

end
-- ==== Proof.FrameIdeal.lean ====
/-
  The idealized kernel's frame and run, with exact proof data. The grid has 391 points; point `t` streams rows
  `4096 t ‥ 4096 t + 4095` of the edge features and of the packed node terms and writes the same rows of the result.
  1600000 = 390 · 4096 + 2560, so the last point's blocks run 1536 rows past the arrays' end: its fetches fill only the
  first 2560 rows of the staging buffers (the rest holds words nothing names) and its write-back writes only those rows.
  The proof data names each streamed buffer after the body as its block filled out with zeros, and the result's as the
  stored value of those; what the buffers REALLY hold differs from that on the rows past the end only, and the stored
  value's row `r` depends on row `r` of the streamed blocks only (`Payload.pay_congr_row`), which is all the
  obligation for such windows asks.
-/
import proofs.«425191_j76347338653860_3_alg».proof.Proof.BodyIdeal
import proofs.«425191_j76347338653860_3_alg».proof.Proof.Payload
import Idealize.ShloMosaic.Lib.Pipeline.Frame

set_option maxRecDepth 16384

noncomputable section

namespace Cert.KernelIdeal.FrameI

open Cert.KernelIdeal Cert.KernelIdeal.Gen Cert.KernelIdeal.Body Cert.KernelIdeal.Payload
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The edge-feature block of point `t` (its rows inside the array), filled out to 4096 rows with zeros. -/
def xblk8 (c : Dev nD) (t : Fin cfg0.N) : S4096x64.Idx → Elt Ideal .f32 :=
  win0_0.fill (grid0.coords t) (fun _ => Scalar.ofBits (F := Ideal) .f32 0#32) (iblk m c 0 t)

/-- The packed node-term block of point `t`, likewise. -/
def acblk8 (c : Dev nD) (t : Fin cfg0.N) : S4096x2.Idx → Elt Ideal .f32 :=
  win0_1.fill (grid0.coords t) (fun _ => Scalar.ofBits (F := Ideal) .f32 0#32) (iblk m c 1 t)

/-- The proof data on core `c`: the arrays as the region finds them; after the body the two streamed buffers at their
    zero-filled blocks, the weight and bias buffers at their blocks, the result's at the stored value of those. -/
def dats (_ : Fin 1) (c : Dev nD) : Dat τ (Elt Ideal) Unit ℕ (UR sig nD τ) ℕ cfg0 c where
  A w := V m c (Pipeline.arrRef spec0 w)
  after w t := match w with
    | ⟨0, _⟩ => xblk8 m c t
    | ⟨1, _⟩ => acblk8 m c t
    | ⟨2, _⟩ => iblk m c 2 t
    | ⟨3, _⟩ => iblk m c 3 t
    | ⟨4, _⟩ => outBlock (xblk8 m c t) (acblk8 m c t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xblk8 m c t := by dsimp only [dats]
theorem after0_1 (c : Dev nD) (t : Fin cfg0.N) : (dats m 0 c).after 1 t = acblk8 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (xblk8 m c t) (acblk8 m c t) (iblk m c 2 t) (iblk m c 3 t) := by dsimp only [dats]

/-! ## What the body finds in each buffer -/

/-- The streamed buffers are fetched at every point: the block on the rows inside the array, anything past them. -/
theorem before0_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]
theorem before0_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [A_eq]
/-- The weight and bias buffers hold their one block at every point. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- The result's buffer was written back at the point before (or is fresh): it holds anything. -/
theorem before0_4 (c : Dev nD) (t : Fin cfg0.N) (d) : (dats m 0 c).before 4 t d = d :=
  (dats m 0 c).before_out_reset 4 rfl t (by
    by_cases h : t.val = 0
    · exact .inl h
    · exact .inr ⟨h, flush0_4 _⟩) d

/-! ## Rows inside the array -/

/-- The three row-streamed windows are cut alike on the row axis, and not at all on the column axis. -/
theorem cuts_agree : ∀ t : Fin cfg0.N,
    win0_0.xsize (grid0.coords t) 0 = win0_4.xsize (grid0.coords t) 0 ∧ win0_0.xsize (grid0.coords t) 1 = 64
    ∧ win0_1.xsize (grid0.coords t) 0 = win0_4.xsize (grid0.coords t) 0 ∧ win0_1.xsize (grid0.coords t) 1 = 2 :=
  (by decide +kernel : ∀ t : Fin grid0.N,
    win0_0.xsize (grid0.coords t) 0 = win0_4.xsize (grid0.coords t) 0 ∧ win0_0.xsize (grid0.coords t) 1 = 64
    ∧ win0_1.xsize (grid0.coords t) 0 = win0_4.xsize (grid0.coords t) 0 ∧ win0_1.xsize (grid0.coords t) 1 = 2)

/-- On an index the transfer moves, a filled block does not depend on the filler. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- The rows of the stored value that the write-back moves do not depend on what the streamed buffers hold past the
    arrays' end: each such row is a function of the same row of the two blocks. -/
theorem cut_out (c : Dev nD) (t : Fin cfg0.N) (d0 d0' : S4096x64.Idx → Elt Ideal .f32) (d1 d1' : S4096x2.Idx → Elt Ideal .f32) :
    win0_4.cut (grid0.coords t) (outBlock (win0_0.fill (grid0.coords t) d0 (iblk m c 0 t))
        (win0_1.fill (grid0.coords t) d1 (iblk m c 1 t)) (iblk m c 2 t) (iblk m c 3 t))
      = win0_4.cut (grid0.coords t) (outBlock (win0_0.fill (grid0.coords t) d0' (iblk m c 0 t))
        (win0_1.fill (grid0.coords t) d1' (iblk m c 1 t)) (iblk m c 2 t) (iblk m c 3 t)) := by
  funext j
  have hr : (j 0).val < 4096 := Nat.lt_of_lt_of_le (j 0).isLt (win0_4.xsize_le (grid0.coords t) 0)
  have e : win0_4.xinj (grid0.coords t) j = ix2 (⟨(j 0).val, hr⟩ : Fin 4096) (0 : Fin 1) := by
    funext a
    match a with
    | ⟨0, _⟩ => rfl
    | ⟨1, _⟩ =>
      have h1 : ((win0_4.xinj (grid0.coords t) j) 1).val < 1 := ((win0_4.xinj (grid0.coords t) j) 1).isLt
      exact Fin.ext (by show ((win0_4.xinj (grid0.coords t) j) 1).val = 0; omega)
  show outBlock _ _ _ _ (win0_4.xinj (grid0.coords t) j) = outBlock _ _ _ _ (win0_4.xinj (grid0.coords t) j)
  rw [e]
  unfold outBlock
  have hc := cuts_agree t
  refine pay_congr_row _ _ _ _ _ _ _ (fun k => ?_) (fun k => ?_)
  · refine fill_eq_of_moved win0_0 _ _ _ _ _ ((win0_0.moved_iff _ _).mpr fun a => ?_)
    match a with
    | ⟨0, _⟩ => show (j 0).val < win0_0.xsize (grid0.coords t) 0; rw [hc.1]; exact (j 0).isLt
    | ⟨1, _⟩ => show k.val < win0_0.xsize (grid0.coords t) 1; rw [hc.2.1]; exact k.isLt
  · refine fill_eq_of_moved win0_1 _ _ _ _ _ ((win0_1.moved_iff _ _).mpr fun a => ?_)
    match a with
    | ⟨0, _⟩ => show (j 0).val < win0_1.xsize (grid0.coords t) 0; rw [hc.2.2.1]; exact (j 0).isLt
    | ⟨1, _⟩ => show k.val < win0_1.xsize (grid0.coords t) 1; rw [hc.2.2.2]; exact k.isLt

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the three cut windows stated on the rows their transfers move, the other two whole. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        ((cfg0.win 4).fill (cfg0.grid.coords t) d ((cfg0.win 4).cut (cfg0.grid.coords t) ((dats m 0 c).after 4 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    (win0_0.fill (grid0.coords t) d0 (iblk m c 0 t)) (win0_1.fill (grid0.coords t) d1 (iblk m c 1 t))
    (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    show _ ⊢ owns (c : Thread nD τ) (st0_0 t) fullShare (win0_0.fill (grid0.coords t) d0 (win0_0.cut (grid0.coords t) (xblk8 m c t)))
    unfold xblk8; rw [Window.cut_fill]
  isplitl [H1]
  · iexists d1
    show _ ⊢ owns (c : Thread nD τ) (st0_1 t) fullShare (win0_1.fill (grid0.coords t) d1 (win0_1.cut (grid0.coords t) (acblk8 m c t)))
    unfold acblk8; rw [Window.cut_fill]
  isplitl [H2]; · iexact H2
  isplitl [H3]; · iexact H3
  iexists outBlock (win0_0.fill (grid0.coords t) d0 (iblk m c 0 t)) (win0_1.fill (grid0.coords t) d1 (iblk m c 1 t)) (iblk m c 2 t) (iblk m c 3 t)
  show _ ⊢ owns (c : Thread nD τ) (st0_4 t) fullShare (win0_4.fill (grid0.coords t) _ (win0_4.cut (grid0.coords t) (outBlock (xblk8 m c t) (acblk8 m c t) (iblk m c 2 t) (iblk m c 3 t))))
  unfold xblk8 acblk8
  rw [win0_4.fill_congr_cut (grid0.coords t) (cut_out m c t d0 _ d1 _)]

/-- The library's body obligation (its form for windows whose last block is cut), at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the six argument arrays end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.FrameI

end
-- ==== Proof.Spec.lean ====
/-
  The edge decoder's score, as one function of the six argument arrays.

  Edge `i` has a source node and a destination node, named by two 32-bit signed words; a negative word counts from the
  end of the node table (100000 is added), and the result is clamped into the table's rows `0 ‥ 99999`. The score is the
  sum of three 64-term dot products — the source node's feature row with columns `0 ‥ 63` of the weight row, the
  destination node's with columns `64 ‥ 127`, the edge's own feature row with columns `128 ‥ 191` — plus the bias.
  Everything is over the extended reals; only commutativity and associativity of `+` are ever used, so no input needs
  to be finite.
-/
import Idealize.ShloMosaic.PureOps.Ideal
import Idealize.ShloMosaic.Lib.ValueIdx

noncomputable section

namespace EdgeScore

open Idealize.ShloMosaic Idealize.ShloMosaic.ValueIdx

/-- The node-table row a 32-bit endpoint word selects: `s + 100000` when `s` is negative, else `s`, read as a signed
    integer and clamped into `0 ‥ 99999`. -/
def nodeRow (s : BitVec 32) : Fin 100000 :=
  ⟨min (Scalar.select (IntOp.cmpi .slt s 0#32) (IntOp.addi s 100000#32) s).toInt.toNat 99999, by omega⟩

/-- Column `64 * J + k` of the weight row: the `k`-th column of its `J`-th third. -/
def wcol (J : Fin 3) (k : Fin 64) : Fin 192 := ⟨64 * J.val + k.val, by have := J.isLt; have := k.isLt; omega⟩

/-- The 64-term dot product of row `r` of a feature table `x` with the `J`-th third of the weight row. -/
def rowDot {n : Nat} (x : (⟨2, ![n, 64]⟩ : Shape).Idx → EReal) (W : (⟨2, ![1, 192]⟩ : Shape).Idx → EReal) (J : Fin 3)
    (r : Fin n) : EReal :=
  ∑ k : Fin 64, x (ix2 r k) * W (ix2 (0 : Fin 1) (wcol J k))

/-- The score of every edge: source term plus destination term, plus the edge's own term, plus the bias. -/
def score (h : (⟨2, ![100000, 64]⟩ : Shape).Idx → EReal) (e : (⟨2, ![1600000, 64]⟩ : Shape).Idx → EReal)
    (W : (⟨2, ![1, 192]⟩ : Shape).Idx → EReal) (b : (⟨1, ![1]⟩ : Shape).Idx → EReal)
    (src dst : (⟨1, ![1600000]⟩ : Shape).Idx → BitVec 32) : (⟨2, ![1600000, 1]⟩ : Shape).Idx → EReal :=
  fun i =>
    ((rowDot h W 0 (nodeRow (src (ix1 (i 0)))) + rowDot h W 1 (nodeRow (dst (ix1 (i 0))))) + rowDot e W 2 (i 0))
      + b (ix1 (0 : Fin 1))

/-- The same score with the edge's own term first and the two node terms grouped: the order the streaming kernel adds
    them in. Equal to `score` by commutativity and associativity of `+` on the extended reals. -/
theorem score_eq_stream (h : (⟨2, ![100000, 64]⟩ : Shape).Idx → EReal) (e : (⟨2, ![1600000, 64]⟩ : Shape).Idx → EReal)
    (W : (⟨2, ![1, 192]⟩ : Shape).Idx → EReal) (b : (⟨1, ![1]⟩ : Shape).Idx → EReal)
    (src dst : (⟨1, ![1600000]⟩ : Shape).Idx → BitVec 32) (i : (⟨2, ![1600000, 1]⟩ : Shape).Idx) :
    (rowDot e W 2 (i 0) + (rowDot h W 0 (nodeRow (src (ix1 (i 0)))) + rowDot h W 1 (nodeRow (dst (ix1 (i 0))))))
      + b (ix1 (0 : Fin 1)) = score h e W b src dst i := by
  unfold score
  rw [add_comm (rowDot e W 2 (i 0))]

end EdgeScore

end
-- ==== Proof.LibGatherCol.lean ====
/-
  `stablehlo.gather` whose start indices are a COLUMN `[R, 1]` of row numbers: what `x[idx]` lowers to for a flat
  table `x : [N]` (one word per index) and for a table of rows `x : [N, C]` (one row per index), the indices broadcast
  to `[R, 1]` with the index vector on axis 1. Either way result element `j` reads the table at the row
  `idx[j 0, 0]`, read as a signed integer and clamped into `0 ‥ N − 1` (StableHLO clamps every start index so that the
  slice fits); for a table of rows the column is `j`'s own.
-/
import Idealize.ShloMosaic.PureOps.ShapeOps
import Idealize.ShloMosaic.Lib.ValueIdx

noncomputable section

namespace GatherCol

open Idealize.ShloMosaic Idealize.ShloMosaic.ValueIdx

variable {α : Type}

/-- The row a column of start indices selects for result row `r`: `idx[r, 0]` signed, clamped into `0 ‥ N − 1`. -/
def rowOf {N R w : Nat} (hN : 0 < N) (idx : IVec ⟨2, ![R, 1]⟩ w) (r : Fin R) : Fin N :=
  ⟨min (idx (ix2 r (0 : Fin 1))).toInt.toNat (N - 1), by omega⟩

/-- The dimension numbers of `x[idx]` for `x : [N]`, `idx : [R, 1]`, result `[R]`. -/
abbrev wordDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The start-indices index at which result row `r` reads its one start-index component: `[r, 0]`. -/
theorem siIdx_word {N R : Nat} (wf : GatherDims.WF ⟨1, ![N]⟩ ⟨2, ![R, 1]⟩ ⟨1, ![R]⟩ [] [0] [] [0] [] 1 ![1]) (r : Fin R) :
    (wordDims N R wf).siIdx (ix1 r) ⟨List.idxOf (0 : Fin 1) (wordDims N R wf).startIndexMap,
      List.idxOf_lt_length_iff.2 (List.mem_singleton.mpr rfl)⟩ = ix2 r (0 : Fin 1) := by
  funext b; refine Fin.ext ?_
  match b with
  | ⟨0, _⟩ => rfl
  | ⟨1, _⟩ => rfl

/-- A flat table gathered at a column of indices, read at `r`: the table's word at the clamped row. -/
theorem gather_word_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (wordDims N R wf) x idx (ix1 r) = x (ix1 (rowOf hN idx r)) := by
  unfold Host.gather
  refine congrArg x ?_
  funext a
  obtain rfl : a = 0 := Subsingleton.elim _ _
  refine Fin.ext ?_
  show (wordDims N R wf).start (ix1 r) idx 0 + (wordDims N R wf).batchCoord (ix1 r) 0
    + (wordDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (wordDims N R wf).startIndexMap from List.mem_singleton.mpr rfl)]
  rw [siIdx_word wf r]
  rfl

/-- The dimension numbers of `x[idx]` for `x : [N, C]`, `idx : [R, 1]`, result `[R, C]`. -/
abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index at which result element `(r, k)` reads its one start-index component: `[r, 0]`. -/
theorem siIdx_row {N C R : Nat} (wf : GatherDims.WF ⟨2, ![N, C]⟩ ⟨2, ![R, 1]⟩ ⟨2, ![R, C]⟩ [1] [0] [] [0] [] 1 ![1, C])
    (r : Fin R) (k : Fin C) :
    (rowDims N C R wf).siIdx (ix2 r k) ⟨List.idxOf (0 : Fin 2) (rowDims N C R wf).startIndexMap,
      List.idxOf_lt_length_iff.2 (List.mem_singleton.mpr rfl)⟩ = ix2 r (0 : Fin 1) := by
  funext b; refine Fin.ext ?_
  match b with
  | ⟨0, _⟩ => rfl
  | ⟨1, _⟩ => rfl

/-- A table of rows gathered at a column of indices, read at `(r, k)`: the table at the clamped row, column `k`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N C R wf) x idx (ix2 r k) = x (ix2 (rowOf hN idx r) k) := by
  unfold Host.gather
  refine congrArg x ?_
  funext a
  refine Fin.ext ?_
  match a with
  | ⟨0, _⟩ =>
    show (rowDims N C R wf).start (ix2 r k) idx 0 + (rowDims N C R wf).batchCoord (ix2 r k) 0
      + (rowDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    rw [siIdx_row wf r k]
    rfl
  | ⟨1, _⟩ =>
    show (rowDims N C R wf).start (ix2 r k) idx 1 + (rowDims N C R wf).batchCoord (ix2 r k) 1
      + (rowDims N C R wf).offCoord (ix2 r k) 1 = _
    rw [GatherDims.batchCoord_eq_zero _ _ _ List.not_mem_nil]
    unfold GatherDims.start
    rw [dif_neg (show ¬ (1 : Fin 2) ∈ (rowDims N C R wf).startIndexMap from
      fun h => absurd (List.mem_singleton.mp h) (show ¬ (1 : Fin 2) = 0 by decide))]
    simp only [Nat.add_zero, Nat.zero_add]
    unfold GatherDims.offCoord
    rw [dif_pos (show (1 : Fin 2) ∈ (rowDims N C R wf).sKept from (GatherDims.mem_sKept _ _).mpr
      ⟨fun h => absurd (List.mem_singleton.mp h) (show ¬ (1 : Fin 2) = 0 by decide), List.not_mem_nil⟩)]
    rfl

end GatherCol

end
-- ==== Proof.KernelHost.lean ====
/-
  What the host lines before the kernel's one region leave in the three arrays the region stages besides the edge
  features: the packed pair `[a[src], c[dst]]` per edge — `a` and `c` the node table's rows dotted with the first and
  second third of the weight row, gathered at the endpoint words —, the last third of the weight row, and the bias as
  a 1×1 array. Each is read here at an index, in terms of the argument arrays.
-/
import proofs.«425191_j76347338653860_3_alg».proof.Proof.Gen.KernelIdeal.Frame
import proofs.«425191_j76347338653860_3_alg».proof.Proof.Spec
import proofs.«425191_j76347338653860_3_alg».proof.Proof.LibGatherCol
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostValue

open Cert.KernelIdeal Cert.KernelIdeal.Gen EdgeScore
open Idealize.ShloMosaic Idealize.ShloMosaic.TcCoe Idealize.ShloMosaic.ValueIdx Idealize.SL.Sem

variable (m : (ℓ : Loc nD τ sig) → Buf (Elt Ideal) ℓ)

/-! ## The two short arrays: the last third of the weight row, and the bias -/

/-- The staged weight block as the host line's term: the slice of the weight row at column offset 128. -/
theorem we_term (c : Dev nD) :
    (V (F := Ideal) m c main_v2 : S1x64.Idx → EReal)
      = extractStridedSlice S1x64 ![0, 128] (m ((c : Thread nD τ).loc main_arg2)) slices_S1x192_S1x64_0_128 := by
  dsimp only [Gen.V, Gen.hostOps0]; after_results

/-- The staged bias block as the host line's term: the bias viewed as a 1×1 array. -/
theorem bias_term (c : Dev nD) :
    (V (F := Ideal) m c main_v24 : S1x1.Idx → EReal)
      = shapeCast S1x1 (m ((c : Thread nD τ).loc main_arg3)) shapeCasts_S1_S1x1 := by
  dsimp only [Gen.V, Gen.hostOps0]; after_results; rfl

/-- A 64-column slice of the weight row at column offset `64 * J`, read at column `k`: the row's column `64 * J + k`. -/
theorem slice_third_apply (x2 : FVec Ideal S1x192 .f32) (J : Fin 3) (h : S1x192.Slices ![0, 64 * J.val] S1x64) (k : Fin 64) :
    extractStridedSlice S1x64 ![0, 64 * J.val] x2 h (ix2 (0 : Fin 1) k) = x2 (ix2 (0 : Fin 1) (wcol J k)) :=
  extractStridedSlice_apply ![0, 64 * J.val] x2 h (ix2 (0 : Fin 1) k) (ix2 (0 : Fin 1) (wcol J k)) (fun a => match a with
    | ⟨0, _⟩ => by show (0 : Nat) = 0 + 0; omega
    | ⟨1, _⟩ => by show 64 * J.val + k.val = 64 * J.val + k.val; rfl)

/-! ## The packed pair: a node table dotted with a third of the weight row, gathered at the endpoint words -/

/-- A node table dotted with a 64-column weight block, as the host lines compute it: the `[100000, 1]` product viewed
    as a flat table of 100000 words. -/
def nodeDot (x0 : FVec Ideal S100000x64 .f32) (w : FVec Ideal S1x64 .f32) : FVec Ideal S100000 .f32 :=
  shapeCast S100000 (Host.dotGeneral (F := Ideal) dot_S100000x64_S1x64_S100000x1_1_1_0_0_n_n none x0 w) shapeCasts_S100000x1_S100000

/-- The endpoint words as the host lines prepare them for the gather: a negative word has 100000 added, and the words
    stand as a column `[1600000, 1]`. -/
def wrapCol (s : S1600000.Idx → BitVec 32) : S1600000x1.Idx → BitVec 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- A flat node table gathered at the prepared endpoint column, the result viewed as a column `[1600000, 1]`. -/
def gatherCol (t : FVec Ideal S100000 .f32) (s : S1600000.Idx → BitVec 32) : FVec Ideal S1600000x1 .f32 :=
  shapeCast S1600000x1 (Host.gather gather_S100000_S1600000x1_S1600000_n_0_n_n_0_1_1 t (wrapCol s)) shapeCasts_S1600000_S1600000x1

theorem lhs_nodeDot_0 (i : S100000x1.Idx) (q : dot_S100000x64_S1x64_S100000x1_1_1_0_0_n_n.contr.Idx) :
    (dot_S100000x64_S1x64_S100000x1_1_1_0_0_n_n.lhsIdx i q 0).val = (i 0).val := by
  unfold DotDims.lhsIdx
  rw [dif_neg (show ¬(0 : Fin S100000x64.rank) ∈ dot_S100000x64_S1x64_S100000x1_1_1_0_0_n_n.lhsBatch by decide), dif_pos (show (0 : Fin S100000x64.rank) ∈ dot_S100000x64_S1x64_S100000x1_1_1_0_0_n_n.lhsNonContracting by decide)]
  rfl
theorem lhs_nodeDot_1 (i : S100000x1.Idx) (q : dot_S100000x64_S1x64_S100000x1_1_1_0_0_n_n.contr.Idx) :
    (dot_S100000x64_S1x64_S100000x1_1_1_0_0_n_n.lhsIdx i q 1).val = (q ⟨0, by decide⟩).val :=
  dot_S100000x64_S1x64_S100000x1_1_1_0_0_n_n.lhsIdx_val_of_single rfl i q
theorem rhs_nodeDot_0 (i : S100000x1.Idx) (q : dot_S100000x64_S1x64_S100000x1_1_1_0_0_n_n.contr.Idx) :
    (dot_S100000x64_S1x64_S100000x1_1_1_0_0_n_n.rhsIdx i q 0).val = (i 1).val := by
  unfold DotDims.rhsIdx
  rw [dif_neg (show ¬(0 : Fin S1x64.rank) ∈ dot_S100000x64_S1x64_S100000x1_1_1_0_0_n_n.rhsBatch by decide), dif_pos (show (0 : Fin S1x64.rank) ∈ dot_S100000x64_S1x64_S100000x1_1_1_0_0_n_n.rhsNonContracting by decide)]
  rfl
theorem rhs_nodeDot_1 (i : S100000x1.Idx) (q : dot_S100000x64_S1x64_S100000x1_1_1_0_0_n_n.contr.Idx) :
    (dot_S100000x64_S1x64_S100000x1_1_1_0_0_n_n.rhsIdx i q 1).val = (q ⟨0, by decide⟩).val :=
  dot_S100000x64_S1x64_S100000x1_1_1_0_0_n_n.rhsIdx_val_of_single rfl i q

/-- The `[100000, 1]` product at `(n, 0)`: node `n`'s row dotted with the weight block, a 64-term sum. -/
theorem dot_col_apply (x0 : FVec Ideal S100000x64 .f32) (w : FVec Ideal S1x64 .f32) (n : Fin 100000) :
    Host.dotGeneral (F := Ideal) dot_S100000x64_S1x64_S100000x1_1_1_0_0_n_n none x0 w (ix2 n (0 : Fin 1))
      = ∑ k : Fin 64, x0 (ix2 n k) * w (ix2 (0 : Fin 1) k) := by
  simp only [Host.dotGeneral]
  rw [Ideal.dotGeneral_apply, ← Equiv.sum_comp (ValueIdx.contrEquiv1 dot_S100000x64_S1x64_S100000x1_1_1_0_0_n_n 64 rfl rfl).symm]
  refine Finset.sum_congr rfl fun k _ => ?_
  have hk := ValueIdx.contrEquiv1_symm_val dot_S100000x64_S1x64_S100000x1_1_1_0_0_n_n 64 rfl rfl k
  have el : dot_S100000x64_S1x64_S100000x1_1_1_0_0_n_n.lhsIdx (ix2 n (0 : Fin 1)) ((ValueIdx.contrEquiv1 dot_S100000x64_S1x64_S100000x1_1_1_0_0_n_n 64 rfl rfl).symm k) = ix2 n k := funext fun a => Fin.ext (by
    match a with
    | ⟨0, _⟩ => exact lhs_nodeDot_0 _ _
    | ⟨1, _⟩ => exact (lhs_nodeDot_1 _ _).trans hk)
  have er : dot_S100000x64_S1x64_S100000x1_1_1_0_0_n_n.rhsIdx (ix2 n (0 : Fin 1)) ((ValueIdx.contrEquiv1 dot_S100000x64_S1x64_S100000x1_1_1_0_0_n_n 64 rfl rfl).symm k) = ix2 (0 : Fin 1) k := funext fun a => Fin.ext (by
    match a with
    | ⟨0, _⟩ => exact rhs_nodeDot_0 _ _
    | ⟨1, _⟩ => exact (rhs_nodeDot_1 _ _).trans hk)
  rw [el, er]

/-- The flat table at node `n`: the same 64-term sum. -/
theorem nodeDot_apply (x0 : FVec Ideal S100000x64 .f32) (w : FVec Ideal S1x64 .f32) (n : Fin 100000) :
    nodeDot x0 w (ix1 n) = ∑ k : Fin 64, x0 (ix2 n k) * w (ix2 (0 : Fin 1) k) := by
  unfold nodeDot
  refine (shapeCast_apply _ shapeCasts_S100000x1_S100000 (ix1 n) (ix2 n (0 : Fin 1)) ?_).trans (dot_col_apply x0 w n)
  rw [Shape.rowMajor_val_two, Shape.rowMajor_val_one]
  show n.val * 1 + 0 = n.val
  omega

/-- The prepared endpoint column at edge `r`: the word, with 100000 added when it is negative. -/
theorem wrapCol_apply (s : S1600000.Idx → BitVec 32) (r : Fin 1600000) :
    wrapCol s (ix2 r (0 : Fin 1))
      = Scalar.select (IntOp.cmpi .slt (s (ix1 r)) 0#32) (IntOp.addi (s (ix1 r)) 100000#32) (s (ix1 r)) := by
  unfold wrapCol
  refine (broadcastInDim_apply _ bcast_S1600000_S1600000x1_0 _ (ix2 r (0 : Fin 1)) (ix1 r) (fun a => match a with
    | ⟨0, _⟩ => by show r.val = if (1600000 : Nat) = 1 then 0 else r.val; rw [if_neg (by decide)])).trans ?_
  rfl

/-- The node row the gather reads for edge `r` is the one the endpoint word selects. -/
theorem rowOf_wrapCol (s : S1600000.Idx → BitVec 32) (r : Fin 1600000) :
    GatherCol.rowOf (N := 100000) (by decide) (wrapCol s) r = nodeRow (s (ix1 r)) := by
  unfold GatherCol.rowOf nodeRow
  apply Fin.ext
  show min (wrapCol s (ix2 r (0 : Fin 1))).toInt.toNat (100000 - 1) = _
  rw [wrapCol_apply]

/-- The gathered column at edge `r`: the flat table at the node row the endpoint word selects. -/
theorem gatherCol_apply (t : FVec Ideal S100000 .f32) (s : S1600000.Idx → BitVec 32) (r : Fin 1600000) :
    gatherCol t s (ix2 r (0 : Fin 1)) = t (ix1 (nodeRow (s (ix1 r)))) := by
  unfold gatherCol
  refine (shapeCast_apply _ shapeCasts_S1600000_S1600000x1 (ix2 r (0 : Fin 1)) (ix1 r) ?_).trans ?_
  · rw [Shape.rowMajor_val_two, Shape.rowMajor_val_one]
    show r.val = r.val * 1 + 0
    omega
  · rw [← rowOf_wrapCol]
    exact GatherCol.gather_word_apply (N := 100000) (R := 1600000) (by decide)
      gather_S100000_S1600000x1_S1600000_n_0_n_n_0_1_1_wf t (wrapCol s) r

/-- One column of the packed pair at edge `r`, for the `J`-th third of the weight row: the selected node's row dotted
    with that third. -/
theorem col_apply (x0 : FVec Ideal S100000x64 .f32) (x2 : FVec Ideal S1x192 .f32) (s : S1600000.Idx → BitVec 32) (J : Fin 3)
    (h : S1x192.Slices ![0, 64 * J.val] S1x64) (r : Fin 1600000) :
    gatherCol (nodeDot x0 (extractStridedSlice S1x64 ![0, 64 * J.val] x2 h)) s (ix2 r (0 : Fin 1))
      = rowDot x0 x2 J (nodeRow (s (ix1 r))) := by
  rw [gatherCol_apply, nodeDot_apply]
  unfold rowDot
  refine Finset.sum_congr rfl fun k _ => ?_
  rw [slice_third_apply]

/-- The packed pair as the host lines' term over the four argument arrays it depends on. -/
theorem pair_term (c : Dev nD) :
    (V (F := Ideal) m c main_v23 : S1600000x2.Idx → EReal)
      = concatenate S1600000x2 1
          [⟨S1600000x1, gatherCol (nodeDot (m ((c : Thread nD τ).loc main_arg0))
              (extractStridedSlice S1x64 ![0, 0] (m ((c : Thread nD τ).loc main_arg2)) slices_S1x192_S1x64_0_0))
              (m ((c : Thread nD τ).loc main_arg4))⟩,
           ⟨S1600000x1, gatherCol (nodeDot (m ((c : Thread nD τ).loc main_arg0))
              (extractStridedSlice S1x64 ![0, 64] (m ((c : Thread nD τ).loc main_arg2)) slices_S1x192_S1x64_0_64))
              (m ((c : Thread nD τ).loc main_arg5))⟩]
          concatenates_S1600000x1_S1600000x1_S1600000x2_d1 := by
  dsimp only [Gen.V, Gen.hostOps0]
  after_results_simp <;> rfl

/-! ## The four readings -/

/-- Column 0 of the packed pair at edge `r`: the source node's row dotted with the first third of the weight row. -/
theorem ac_src (c : Dev nD) (r : Fin 1600000) :
    (V (F := Ideal) m c main_v23 : S1600000x2.Idx → EReal) (ix2 r (0 : Fin 2))
      = rowDot (m ((c : Thread nD τ).loc main_arg0)) (m ((c : Thread nD τ).loc main_arg2)) 0
          (nodeRow (m ((c : Thread nD τ).loc main_arg4) (ix1 r))) := by
  rw [pair_term]
  refine (concatenate_pair_apply_left (1 : Fin S1600000x2.rank) _ _ concatenates_S1600000x1_S1600000x1_S1600000x2_d1
    (ix2 r (0 : Fin 2)) rfl (ix2 r (0 : Fin 1)) (fun b => match b with | ⟨0, _⟩ => rfl | ⟨1, _⟩ => rfl)).trans ?_
  exact col_apply _ _ _ 0 slices_S1x192_S1x64_0_0 r

/-- Column 1 of the packed pair at edge `r`: the destination node's row dotted with the second third. -/
theorem ac_dst (c : Dev nD) (r : Fin 1600000) :
    (V (F := Ideal) m c main_v23 : S1600000x2.Idx → EReal) (ix2 r (1 : Fin 2))
      = rowDot (m ((c : Thread nD τ).loc main_arg0)) (m ((c : Thread nD τ).loc main_arg2)) 1
          (nodeRow (m ((c : Thread nD τ).loc main_arg5) (ix1 r))) := by
  rw [pair_term]
  refine (concatenate_pair_apply_right (1 : Fin S1600000x2.rank) _ _ concatenates_S1600000x1_S1600000x1_S1600000x2_d1
    (ix2 r (1 : Fin 2)) rfl rfl (ix2 r (0 : Fin 1))
    (fun b => match b with | ⟨0, _⟩ => fun _ => rfl | ⟨1, _⟩ => fun hb => absurd rfl hb) rfl).trans ?_
  exact col_apply _ _ _ 1 slices_S1x192_S1x64_0_64 r

/-- The staged weight block is the last third of the weight row. -/
theorem we_apply (c : Dev nD) (k : Fin 64) :
    (V (F := Ideal) m c main_v2 : S1x64.Idx → EReal) (ix2 (0 : Fin 1) k)
      = m ((c : Thread nD τ).loc main_arg2) (ix2 (0 : Fin 1) (wcol 2 k)) := by
  rw [we_term]
  exact slice_third_apply _ 2 slices_S1x192_S1x64_0_128 k

/-- The staged bias block is the bias. -/
theorem bias_apply (c : Dev nD) :
    (V (F := Ideal) m c main_v24 : S1x1.Idx → EReal) (ix2 (0 : Fin 1) (0 : Fin 1))
      = m ((c : Thread nD τ).loc main_arg3) (ix1 (0 : Fin 1)) := by
  rw [bias_term]
  generalize m ((c : Thread nD τ).loc main_arg3) = b
  exact shapeCast_apply b shapeCasts_S1_S1x1 (ix2 (0 : Fin 1) (0 : Fin 1)) (ix1 (0 : Fin 1)) rfl

end Cert.KernelIdeal.HostValue

end
-- ==== Proof.Cover.lean ====
/-
  The result window's blocks cover the result array. Point `t` of the 391 writes back rows `4096 t ‥ 4096 t + n_t − 1`
  of the one column, with `n_t = 4096` for `t < 390` and `n_390 = 2560` (1600000 = 390 · 4096 + 2560: the last block is
  cut at the array's end). So row `r` of the array lies in the block of point `r / 4096`.
-/
import proofs.«425191_j76347338653860_3_alg».proof.Proof.Gen.KernelIdeal.Frame

set_option maxRecDepth 16384

noncomputable section

namespace Cert.KernelIdeal.Cover

open Cert.KernelIdeal Cert.KernelIdeal.Gen
open Idealize.ShloMosaic Idealize.ShloMosaic.TcCoe Idealize.SL.Sem

/-- The result window's facts, decided over the 391 points: point `t` writes back block `(t, 0)`, one column wide and
    4096 rows long, but for the last point's, which is cut to the 2560 rows the array still has. -/
theorem rows4 : ∀ t : Fin cfg0.N, win0_4.index t (0 : Fin 2) = t.val ∧ win0_4.index t (1 : Fin 2) = 0
    ∧ win0_4.xsize (grid0.coords t) (1 : Fin 2) = 1
    ∧ (t.val < 390 → win0_4.xsize (grid0.coords t) (0 : Fin 2) = 4096)
    ∧ (t.val = 390 → win0_4.xsize (grid0.coords t) (0 : Fin 2) = 2560) :=
  (by decide +kernel : ∀ t : Fin grid0.N, _)

/-- An index of the result array is in point `t`'s block iff each coordinate is in the block's range on its axis, the
    range's length the block's cut extent. -/
theorem mem_blk4 (t : Fin cfg0.N) (i : S1600000x1.Idx) :
    i ∈ ((cfg0.win 4).blk t).view.set ↔ ∀ a : Fin 2, win0_4.index t a * S4096x1.size a ≤ (i a).val
      ∧ (i a).val < win0_4.index t a * S4096x1.size a + win0_4.xsize (grid0.coords t) a := by
  show i ∈ ((View.whole main_v25).slice (win0_4.rect t)).set ↔ _
  rw [View.set_slice_whole, Rect.mem_set_unit]
  exact Iff.rfl

/-- Every index of the result array is in the block some point writes back. -/
theorem cover4 (i : S1600000x1.Idx) :
    ∃ t : Fin cfg0.N, (cfg0.win 4).flush t = true ∧ i ∈ ((cfg0.win 4).blk t).view.set := by
  have hi0 : (i 0).val < 1600000 := (i 0).isLt
  have hi1 : (i 1).val < 1 := (i 1).isLt
  obtain ⟨t, ht⟩ : ∃ t : Fin cfg0.N, t.val = (i 0).val / 4096 :=
    ⟨⟨(i 0).val / 4096, by show (i 0).val / 4096 < 391; omega⟩, rfl⟩
  obtain ⟨e0, e1, s1, s0a, s0b⟩ := rows4 t
  have ht391 : t.val < 391 := t.isLt
  refine ⟨t, flush0_4 t, ?_⟩
  rw [mem_blk4]
  intro a
  match a with
  | ⟨0, _⟩ =>
    show win0_4.index t (0 : Fin 2) * 4096 ≤ (i 0).val
      ∧ (i 0).val < win0_4.index t (0 : Fin 2) * 4096 + win0_4.xsize (grid0.coords t) (0 : Fin 2)
    rw [e0]
    rcases Nat.lt_or_ge t.val 390 with h | h
    · rw [s0a h]; omega
    · have h390 : t.val = 390 := by omega
      rw [s0b h390]; omega
  | ⟨1, _⟩ =>
    show win0_4.index t (1 : Fin 2) * 1 ≤ (i 1).val
      ∧ (i 1).val < win0_4.index t (1 : Fin 2) * 1 + win0_4.xsize (grid0.coords t) (1 : Fin 2)
    rw [e1, s1]; omega

end Cert.KernelIdeal.Cover

end
-- ==== Proof.ValueIdeal.lean ====
/-
  The idealized kernel's result array after the run is the edge score of the argument arrays.

  Point `t` writes back rows `4096 t ‥` of the stored block, and row `r` of that block is (the payload at a row) the
  64-term sum of the feature block's row times the weight block, plus the packed block's two entries, plus the bias
  block's entry. Read back through the windows, the feature block's row `r` is row `4096 t + r` of the edge features,
  the packed block's row `r` is row `4096 t + r` of the packed array the host lines built — the source node's and
  the destination node's dot products —, the weight block is the last third of the weight row and the bias block the
  bias. That is the score of edge `4096 t + r` with its terms in the streaming order. The blocks cover the array.
-/
import proofs.«425191_j76347338653860_3_alg».proof.Proof.FrameIdeal
import proofs.«425191_j76347338653860_3_alg».proof.Proof.KernelHost
import proofs.«425191_j76347338653860_3_alg».proof.Proof.Cover
import Idealize.ShloMosaic.Lib.Pipeline.Value

set_option maxRecDepth 16384

noncomputable section

namespace Cert.KernelIdeal.ValueI

open Cert.KernelIdeal Cert.KernelIdeal.Gen Cert.KernelIdeal.Body Cert.KernelIdeal.Payload Cert.KernelIdeal.FrameI
open Cert.KernelIdeal.HostValue Cert.KernelIdeal.Cover EdgeScore
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The score of the launch memory's argument arrays on core `c`. -/
abbrev scoreOf (c : Dev nD) : S1600000x1.Idx → EReal :=
  score (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The printed index maps, decided over the grid: the three streamed windows are at block row `t`, column 0; the weight
    and bias windows at block (0, 0); and the result's cut block ends inside the array. -/
theorem rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ t.val * 4096 + win0_4.xsize (grid0.coords t) (0 : Fin 2) ≤ 1600000 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ t.val * 4096 + win0_4.xsize (grid0.coords t) (0 : Fin 2) ≤ 1600000)

/-! ## The blocks, read at an index -/

/-- Row `r` (inside the array) of the zero-filled feature block of point `t` is row `4096 t + r` of the edge features. -/
theorem xblk_apply (c : Dev nD) (t : Fin cfg0.N) (r : Fin 4096) (k : Fin 64)
    (hr : r.val < win0_4.xsize (grid0.coords t) (0 : Fin 2)) (hR : t.val * 4096 + r.val < 1600000) :
    xblk8 m c t (ix2 r k) = m ((c : Thread nD τ).loc main_arg1) (ix2 (⟨t.val * 4096 + r.val, hR⟩ : Fin 1600000) k) := by
  have hc := cuts_agree t
  have hm : win0_0.moved (grid0.coords t) (ix2 r k) = true := (win0_0.moved_iff _ _).mpr fun a => by
    match a with
    | ⟨0, _⟩ => show r.val < win0_0.xsize (grid0.coords t) 0; rw [hc.1]; exact hr
    | ⟨1, _⟩ => show k.val < win0_0.xsize (grid0.coords t) 1; rw [hc.2.1]; exact k.isLt
  unfold xblk8 Window.fill
  rw [dif_pos hm]
  show V m c main_arg1 (((cfg0.win 0).blk t).view.emb _) = _
  rw [V_main_arg1]
  congr 1
  funext a; apply Fin.ext
  match a with
  | ⟨0, _⟩ => show win0_0.index t (0 : Fin 2) * 4096 + 1 * r.val = t.val * 4096 + r.val; rw [(rows t).1]; omega
  | ⟨1, _⟩ => show win0_0.index t (1 : Fin 2) * 64 + 1 * k.val = k.val; rw [(rows t).2.1]; omega

/-- Row `r` (inside the array) of the zero-filled packed block of point `t` is row `4096 t + r` of the packed array. -/
theorem acblk_apply (c : Dev nD) (t : Fin cfg0.N) (r : Fin 4096) (k : Fin 2)
    (hr : r.val < win0_4.xsize (grid0.coords t) (0 : Fin 2)) (hR : t.val * 4096 + r.val < 1600000) :
    acblk8 m c t (ix2 r k)
      = (V (F := Ideal) m c main_v23 : S1600000x2.Idx → EReal) (ix2 (⟨t.val * 4096 + r.val, hR⟩ : Fin 1600000) k) := by
  have hc := cuts_agree t
  have hm : win0_1.moved (grid0.coords t) (ix2 r k) = true := (win0_1.moved_iff _ _).mpr fun a => by
    match a with
    | ⟨0, _⟩ => show r.val < win0_1.xsize (grid0.coords t) 0; rw [hc.2.2.1]; exact hr
    | ⟨1, _⟩ => show k.val < win0_1.xsize (grid0.coords t) 1; rw [hc.2.2.2]; exact k.isLt
  unfold acblk8 Window.fill
  rw [dif_pos hm]
  show V m c main_v23 (((cfg0.win 1).blk t).view.emb _) = _
  congr 1
  funext a; apply Fin.ext
  match a with
  | ⟨0, _⟩ => show win0_1.index t (0 : Fin 2) * 4096 + 1 * r.val = t.val * 4096 + r.val; rw [(rows t).2.2.1]; omega
  | ⟨1, _⟩ => show win0_1.index t (1 : Fin 2) * 2 + 1 * k.val = k.val; rw [(rows t).2.2.2.1]; omega

/-- The weight block is the staged weight array. -/
theorem weblk_apply (c : Dev nD) (t : Fin cfg0.N) (k : Fin 64) :
    iblk m c 2 t (ix2 (0 : Fin 1) k) = (V (F := Ideal) m c main_v2 : S1x64.Idx → EReal) (ix2 (0 : Fin 1) k) := by
  show V m c main_v2 (((cfg0.win 2).blk t).view.emb (ix2 (0 : Fin 1) k)) = _
  congr 1
  funext a; apply Fin.ext
  match a with
  | ⟨0, _⟩ => show win0_2.index t (0 : Fin 2) * 1 + 1 * 0 = 0; rw [(rows t).2.2.2.2.1]
  | ⟨1, _⟩ => show win0_2.index t (1 : Fin 2) * 64 + 1 * k.val = k.val; rw [(rows t).2.2.2.2.2.1]; omega

/-- The bias block is the staged bias array. -/
theorem bblk_apply (c : Dev nD) (t : Fin cfg0.N) :
    iblk m c 3 t (ix2 (0 : Fin 1) (0 : Fin 1)) = (V (F := Ideal) m c main_v24 : S1x1.Idx → EReal) (ix2 (0 : Fin 1) (0 : Fin 1)) := by
  show V m c main_v24 (((cfg0.win 3).blk t).view.emb (ix2 (0 : Fin 1) (0 : Fin 1))) = _
  congr 1
  funext a; apply Fin.ext
  match a with
  | ⟨0, _⟩ => show win0_3.index t (0 : Fin 2) * 1 + 1 * 0 = 0; rw [(rows t).2.2.2.2.2.2.1]
  | ⟨1, _⟩ => show win0_3.index t (1 : Fin 2) * 1 + 1 * 0 = 0; rw [(rows t).2.2.2.2.2.2.2.1]

/-! ## What a point writes back, and the array after the run -/

/-- WHAT POINT `t` WRITES BACK is block `t` of the score. -/
theorem flushed_eq (c : Dev nD) (t : Fin cfg0.N) :
    (dats m 0 c).flushed 4 t = ((cfg0.win 4).blk t).view.read (Elt Ideal) (scoreOf m c) := by
  show (cfg0.win 4).cut (grid0.coords t) ((dats m 0 c).after 4 t) = _
  rw [after0_4]
  funext j
  have hx : (j 0).val < win0_4.xsize (grid0.coords t) (0 : Fin 2) := (j 0).isLt
  have hr : (j 0).val < 4096 := Nat.lt_of_lt_of_le hx (win0_4.xsize_le (grid0.coords t) 0)
  have hR : t.val * 4096 + (j 0).val < 1600000 := by have := (rows t).2.2.2.2.2.2.2.2.2.2; omega
  have e : win0_4.xinj (grid0.coords t) j = ix2 (⟨(j 0).val, hr⟩ : Fin 4096) (0 : Fin 1) := by
    funext a
    match a with
    | ⟨0, _⟩ => rfl
    | ⟨1, _⟩ =>
      have h1 : ((win0_4.xinj (grid0.coords t) j) 1).val < 1 := ((win0_4.xinj (grid0.coords t) j) 1).isLt
      exact Fin.ext (by show ((win0_4.xinj (grid0.coords t) j) 1).val = 0; omega)
  have ei : ((cfg0.win 4).blk t).view.emb j = ix2 (⟨t.val * 4096 + (j 0).val, hR⟩ : Fin 1600000) (0 : Fin 1) := by
    funext a; apply Fin.ext
    match a with
    | ⟨0, _⟩ => show win0_4.index t (0 : Fin 2) * 4096 + 1 * (j 0).val = t.val * 4096 + (j 0).val; rw [(rows t).2.2.2.2.2.2.2.2.1]; omega
    | ⟨1, _⟩ =>
      have h1 : (j 1).val < 1 := Nat.lt_of_lt_of_le (j 1).isLt (win0_4.xsize_le (grid0.coords t) 1)
      show win0_4.index t (1 : Fin 2) * 1 + 1 * (j 1).val = 0; rw [(rows t).2.2.2.2.2.2.2.2.2.1]; omega
  show outBlock (xblk8 m c t) (acblk8 m c t) (iblk m c 2 t) (iblk m c 3 t) (win0_4.xinj (grid0.coords t) j)
    = scoreOf m c (((cfg0.win 4).blk t).view.emb j)
  rw [e, ei]
  unfold outBlock
  rw [pay_apply]
  refine Eq.trans ?_ (score_eq_stream _ _ _ _ _ _ (ix2 (⟨t.val * 4096 + (j 0).val, hR⟩ : Fin 1600000) (0 : Fin 1)))
  show (_ + _) + _ = (rowDot (m ((c : Thread nD τ).loc main_arg1)) (m ((c : Thread nD τ).loc main_arg2)) 2 ⟨t.val * 4096 + (j 0).val, hR⟩
      + (rowDot (m ((c : Thread nD τ).loc main_arg0)) (m ((c : Thread nD τ).loc main_arg2)) 0
            (nodeRow (m ((c : Thread nD τ).loc main_arg4) (ix1 ⟨t.val * 4096 + (j 0).val, hR⟩)))
          + rowDot (m ((c : Thread nD τ).loc main_arg0)) (m ((c : Thread nD τ).loc main_arg2)) 1
            (nodeRow (m ((c : Thread nD τ).loc main_arg5) (ix1 ⟨t.val * 4096 + (j 0).val, hR⟩)))))
    + m ((c : Thread nD τ).loc main_arg3) (ix1 (0 : Fin 1))
  congr 1
  · congr 1
    · unfold rowDot
      refine Finset.sum_congr rfl fun k _ => ?_
      rw [xblk_apply m c t ⟨(j 0).val, hr⟩ k hx hR, weblk_apply, we_apply]
    · rw [Fin.sum_univ_two, acblk_apply m c t ⟨(j 0).val, hr⟩ 0 hx hR, acblk_apply m c t ⟨(j 0).val, hr⟩ 1 hx hR, ac_src, ac_dst]
  · rw [bblk_apply, bias_apply]

/-- THE RESULT ARRAY after the run is the score. -/
theorem final (c : Dev nD) : (dats m 0 c).arrAt 4 cfg0.N = scoreOf m c :=
  (dats m 0 c).arrAt_eq_of_cover 4 (scoreOf m c) (fun t _ => flushed_eq m c t) cover4

/-- The run, read: the result array ends at the score and the six arguments as they began. -/
theorem run : θ_run defs (onTc (τ := τ) (main (F := Ideal))) ⟨m, fun _ => 0, ρ⟩ fun r => ∀ c : Dev nD,
      r.2.mem ((c.tc : Thread nD τ).loc main_v25) = scoreOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).1 4).trans (final m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.ValueI

end
-- ==== Proof.RefValue.lean ====
/-
  The reference's result, read index by index, is the edge score `EdgeScore.score` of the argument arrays: each of its
  three `dot_general`s is a 64-term sum, each of its two gathers reads the node row the endpoint word selects, and its
  additions are the score's, in the score's own order.
-/
import proofs.«425191_j76347338653860_3_alg».proof.Proof.Gen.ReferenceIdeal.Read
import proofs.«425191_j76347338653860_3_alg».proof.Proof.Spec
import proofs.«425191_j76347338653860_3_alg».proof.Proof.LibGatherCol

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-! ## The gathers: the node row an endpoint word selects -/

/-- The reference's gather read at any index: the node table at the row its start index selects, same column. -/
theorem gather_at (x : (⟨S100000x64, .f32⟩ : BufTy).Contents (Elt Ideal)) (idx : (⟨S1600000x1, .i32⟩ : BufTy).Contents (Elt Ideal))
    (r : Fin 1600000) (k : Fin 64) :
    Host.gather gather_S100000x64_S1600000x1_S1600000x64_1_0_n_n_0_1_164 x idx (ix2 r k)
      = x (ix2 (GatherCol.rowOf (N := 100000) (by decide) idx r) k) :=
  GatherCol.gather_row_apply (by decide) gather_S100000x64_S1600000x1_S1600000x64_1_0_n_n_0_1_164.wf x idx r k

/-- The source endpoint's start index selects `nodeRow` of the source word: the compare, add and select of the index
    normalisation are `nodeRow`'s own, and the gather's clamp is its `min`. -/
theorem row_src (x4 : (⟨S1600000, .i32⟩ : BufTy).Contents (Elt Ideal)) (r : Fin 1600000) :
    GatherCol.rowOf (N := 100000) (by decide) (val_main_v8 (F := Ideal) x4) r = EdgeScore.nodeRow (x4 (ix1 r)) := by
  refine Fin.ext ?_
  simp only [GatherCol.rowOf, EdgeScore.nodeRow]
  rw [val_main_v8_apply, val_main_v7_apply, val_main_v4_apply, val_main_v3_apply, val_main_c_apply, val_main_v6_apply,
    val_main_v5_apply, val_main_c_0_apply]
  rw [show idx_main_v8 (ix2 r (0 : Fin 1)) = ix1 r from funext fun a => match a with | ⟨0, _⟩ => rfl]

/-- The destination endpoint's start index selects `nodeRow` of the destination word. -/
theorem row_dst (x5 : (⟨S1600000, .i32⟩ : BufTy).Contents (Elt Ideal)) (r : Fin 1600000) :
    GatherCol.rowOf (N := 100000) (by decide) (val_main_v16 (F := Ideal) x5) r = EdgeScore.nodeRow (x5 (ix1 r)) := by
  refine Fin.ext ?_
  simp only [GatherCol.rowOf, EdgeScore.nodeRow]
  rw [val_main_v16_apply, val_main_v15_apply, val_main_v12_apply, val_main_v11_apply, val_main_c_1_apply, val_main_v14_apply,
    val_main_v13_apply, val_main_c_2_apply]
  rw [show idx_main_v16 (ix2 r (0 : Fin 1)) = ix1 r from funext fun a => match a with | ⟨0, _⟩ => rfl]

/-! ## The weight row's three slices -/

/-- The first slice's column `k` is the weight row's column `wcol 0 k`. -/
theorem w0_idx (r : Fin 1600000) (k : Fin 64) :
    idx_main_v0 (ridx_main_v10 (ix2 r (0 : Fin 1)) k) = ix2 (0 : Fin 1) (EdgeScore.wcol 0 k) :=
  funext fun a => Fin.ext (by
    match a with
    | ⟨0, _⟩ => rfl
    | ⟨1, _⟩ => show k.val = 64 * 0 + k.val; omega)

/-- The second slice's column `k` is the weight row's column `wcol 1 k`. -/
theorem w1_idx (r : Fin 1600000) (k : Fin 64) :
    idx_main_v1 (ridx_main_v18 (ix2 r (0 : Fin 1)) k) = ix2 (0 : Fin 1) (EdgeScore.wcol 1 k) :=
  funext fun a => Fin.ext (by
    match a with
    | ⟨0, _⟩ => rfl
    | ⟨1, _⟩ => show 64 + k.val = 64 * 1 + k.val; omega)

/-- The third slice's column `k` is the weight row's column `wcol 2 k`. -/
theorem w2_idx (r : Fin 1600000) (k : Fin 64) :
    idx_main_v2 (ridx_main_v20 (ix2 r (0 : Fin 1)) k) = ix2 (0 : Fin 1) (EdgeScore.wcol 2 k) :=
  funext fun a => Fin.ext (by
    match a with
    | ⟨0, _⟩ => rfl
    | ⟨1, _⟩ => show 128 + k.val = 64 * 2 + k.val; omega)

/-- The left operand's index of a dot product at edge `r`, term `k`: row `r`, column `k`. -/
theorem lidx10 (r : Fin 1600000) (k : Fin 64) : lidx_main_v10 (ix2 r (0 : Fin 1)) k = ix2 r k :=
  funext fun a => match a with | ⟨0, _⟩ => rfl | ⟨1, _⟩ => rfl
theorem lidx18 (r : Fin 1600000) (k : Fin 64) : lidx_main_v18 (ix2 r (0 : Fin 1)) k = ix2 r k :=
  funext fun a => match a with | ⟨0, _⟩ => rfl | ⟨1, _⟩ => rfl
theorem lidx20 (r : Fin 1600000) (k : Fin 64) : lidx_main_v20 (ix2 r (0 : Fin 1)) k = ix2 r k :=
  funext fun a => match a with | ⟨0, _⟩ => rfl | ⟨1, _⟩ => rfl

/-! ## The three dot products and the bias -/

/-- The source term: the source node's row against the first third of the weight row. -/
theorem src_term (x0 : (⟨S100000x64, .f32⟩ : BufTy).Contents (Elt Ideal)) (x2 : (⟨S1x192, .f32⟩ : BufTy).Contents (Elt Ideal))
    (x4 : (⟨S1600000, .i32⟩ : BufTy).Contents (Elt Ideal)) (r : Fin 1600000) :
    val_main_v10 (F := Ideal) x0 x2 x4 (ix2 r (0 : Fin 1)) = EdgeScore.rowDot x0 x2 0 (EdgeScore.nodeRow (x4 (ix1 r))) := by
  rw [val_main_v10_apply]
  unfold EdgeScore.rowDot
  refine Finset.sum_congr rfl fun k _ => ?_
  rw [val_main_v0_apply, w0_idx, lidx10]
  unfold val_main_v9
  rw [gather_at, row_src]

/-- The destination term: the destination node's row against the second third of the weight row. -/
theorem dst_term (x0 : (⟨S100000x64, .f32⟩ : BufTy).Contents (Elt Ideal)) (x2 : (⟨S1x192, .f32⟩ : BufTy).Contents (Elt Ideal))
    (x5 : (⟨S1600000, .i32⟩ : BufTy).Contents (Elt Ideal)) (r : Fin 1600000) :
    val_main_v18 (F := Ideal) x0 x2 x5 (ix2 r (0 : Fin 1)) = EdgeScore.rowDot x0 x2 1 (EdgeScore.nodeRow (x5 (ix1 r))) := by
  rw [val_main_v18_apply]
  unfold EdgeScore.rowDot
  refine Finset.sum_congr rfl fun k _ => ?_
  rw [val_main_v1_apply, w1_idx, lidx18]
  unfold val_main_v17
  rw [gather_at, row_dst]

/-- The edge's own term: its feature row against the last third of the weight row. -/
theorem edge_term (x1 : (⟨S1600000x64, .f32⟩ : BufTy).Contents (Elt Ideal)) (x2 : (⟨S1x192, .f32⟩ : BufTy).Contents (Elt Ideal))
    (r : Fin 1600000) :
    val_main_v20 (F := Ideal) x1 x2 (ix2 r (0 : Fin 1)) = EdgeScore.rowDot x1 x2 2 r := by
  rw [val_main_v20_apply]
  unfold EdgeScore.rowDot
  refine Finset.sum_congr rfl fun k _ => ?_
  rw [val_main_v2_apply, w2_idx, lidx20]

/-- The bias, broadcast to every edge. -/
theorem bias_term (x3 : (⟨S1, .f32⟩ : BufTy).Contents (Elt Ideal)) (r : Fin 1600000) :
    val_main_v23 (F := Ideal) x3 (ix2 r (0 : Fin 1)) = x3 (ix1 (0 : Fin 1)) := by
  rw [val_main_v23_apply, val_main_v22_apply]
  refine congrArg x3 ?_
  funext a; match a with | ⟨0, _⟩ => rfl

/-- The reference's result stage is the score. -/
theorem ref_result (x0 : (⟨S100000x64, .f32⟩ : BufTy).Contents (Elt Ideal)) (x1 : (⟨S1600000x64, .f32⟩ : BufTy).Contents (Elt Ideal))
    (x2 : (⟨S1x192, .f32⟩ : BufTy).Contents (Elt Ideal)) (x3 : (⟨S1, .f32⟩ : BufTy).Contents (Elt Ideal))
    (x4 x5 : (⟨S1600000, .i32⟩ : BufTy).Contents (Elt Ideal)) :
    val_main_v24 (F := Ideal) x0 x1 x2 x3 x4 x5 = EdgeScore.score x0 x1 x2 x3 x4 x5 := by
  funext i
  obtain ⟨r, rfl⟩ : ∃ r : Fin 1600000, i = ix2 r (0 : Fin 1) :=
    ⟨i 0, funext fun a => match a with
      | ⟨0, _⟩ => rfl
      | ⟨1, _⟩ => Fin.ext (by have h : (i 1).val < 1 := (i 1).isLt; show (i 1).val = 0; omega)⟩
  rw [val_main_v24_apply, val_main_v21_apply, val_main_v19_apply, src_term, dst_term, edge_term, bias_term]
  simp only [Ideal.addf_def]
  rfl

end Cert.ReferenceIdeal.RefValue

end
-- ==== Proof.lean ====
/-
  An edge decoder of a graph network: 1,600,000 edges over 100,000 nodes, 64 features per node and per edge, one
  output per edge. The score of edge `i` is

      h[src i] · W[0:64] + h[dst i] · W[64:128] + e[i] · W[128:192] + b,

  the endpoint words `src i`, `dst i` read as signed integers, a negative one counted from the end of the node table,
  and clamped into the table (`EdgeScore.score`, Proof/Spec.lean).

  The reference gathers the two node rows per edge and takes the three dot products. The kernel's program takes the
  dot products of EVERY node's row with the first two thirds of the weight row once, on the host, gathers the two
  resulting scalars per edge, packs them as a 1600000×2 array, and a streaming kernel over 391 blocks of 4096 edges
  adds the edge's own dot product (a lane sum of features times weights), the packed pair's lane sum and the bias. A
  gather commutes with a row-wise dot product — both read the same clamped row — and the rest is commutativity and
  associativity of `+` on the extended reals, so no input needs to be finite: the precondition is never opened.

  1600000 is not a multiple of 4096: the last block is cut at the arrays' end, its staging buffers hold words nothing
  names past the first 2560 rows, and its write-back writes only those rows. Over the extended reals a lane sum is a
  sum, so each stored row depends on the same row of the streamed blocks only, and the result array is the score on
  every row (Proof/ValueIdeal.lean over Proof/FrameIdeal.lean). At the word level a lane sum is a function of the
  whole block, so the word-level frame says nothing of the result array: it is the run, the absence of faults, and the
  six arguments unchanged (Proof/FrameBits.lean). The reference's result is the score by reading its stages one at a
  time (Proof/RefValue.lean). The idealization rewrote nothing, so `preserves` is `True`.
-/
import proofs.«425191_j76347338653860_3_alg».proof.Defs
import proofs.«425191_j76347338653860_3_alg».proof.Proof.Gen.Kernel
import proofs.«425191_j76347338653860_3_alg».proof.Proof.Gen.KernelIdeal
import proofs.«425191_j76347338653860_3_alg».proof.Proof.Gen.ReferenceIdeal
import proofs.«425191_j76347338653860_3_alg».proof.Proof.Gen.Pre_finite_inputs
import proofs.«425191_j76347338653860_3_alg».proof.Proof.Gen.ReferenceIdeal.Run
import proofs.«425191_j76347338653860_3_alg».proof.Proof.Gen.ReferenceIdeal.Read
import proofs.«425191_j76347338653860_3_alg».proof.Proof.FrameBits
import proofs.«425191_j76347338653860_3_alg».proof.Proof.ValueIdeal
import proofs.«425191_j76347338653860_3_alg».proof.Proof.RefValue
import Idealize.ShloMosaic.Adequacy
import Idealize.ShloMosaic.Init

noncomputable section

namespace Cert.Proof

open Idealize.ShloMosaic Idealize.SL.Sem

/-- The word-level kernel runs, faults nowhere, and leaves its arguments unchanged. -/
theorem frame_kernel : Cert.frame_Kernel := fun m ρ _ => Cert.Kernel.FrameB.frame (F := Bits) m ρ

/-- So does the idealized kernel. -/
theorem frame_kernelIdeal : Cert.frame_KernelIdeal := fun m ρ _ => Cert.KernelIdeal.FrameI.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the score of the (agreeing) arguments in their result arrays. -/
theorem algebraic : Cert.algebraic_KernelIdeal_ReferenceIdeal := by
  intro m ρ m' ρ' _ hagree
  refine ⟨fun c => Cert.KernelIdeal.ValueI.scoreOf m c, Cert.KernelIdeal.ValueI.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.ref_result,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
